-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x4194304 : Shape := ⟨2, ![2, 4194304]⟩
abbrev S32x64 : Shape := ⟨2, ![32, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x16 .f32) (main_arg1 : IVec S2x4194304 32) (main_arg2 : FVec F S32x64 .f32) (main_arg3 : FVec F S64 .f32) (main_arg4 : FVec F S64x32 .f32) (main_arg5 : FVec F S32 .f32) (main_arg6 : FVec F S32x1 .f32) (main_arg7 : FVec F S1 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S100000x16 : Shape := ⟨2, ![100000, 16]⟩
abbrev S2x4194304 : Shape := ⟨2, ![2, 4194304]⟩
abbrev S32x64 : Shape := ⟨2, ![32, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x4194304 : Shape := ⟨2, ![1, 4194304]⟩
abbrev S4194304 : Shape := ⟨1, ![4194304]⟩
abbrev S_ : Shape := ⟨0, ![]⟩
abbrev S4194304x1 : Shape := ⟨2, ![4194304, 1]⟩
abbrev S4194304x16 : Shape := ⟨2, ![4194304, 16]⟩
abbrev S4194304x32 : Shape := ⟨2, ![4194304, 32]⟩
abbrev S4096x32 : Shape := ⟨2, ![4096, 32]⟩
abbrev S4096x1 : Shape := ⟨2, ![4096, 1]⟩
abbrev S4096x64 : Shape := ⟨2, ![4096, 64]⟩
abbrev S1x64 : Shape := ⟨2, ![1, 64]⟩
abbrev S1x32 : Shape := ⟨2, ![1, 32]⟩
abbrev S1x1 : Shape := ⟨2, ![1, 1]⟩

abbrev nBuf : Space → Nat
  | .hbm => 32
  | .vmem => 10
  | .smem => 0
  | _ => 0

abbrev bufTy : (tb : Table) → Fin (tcTables nBuf tb) → BufTy
  | .hbm, ⟨0, _⟩ => ⟨S100000x16, .f32⟩
  | .hbm, ⟨1, _⟩ => ⟨S2x4194304, .i32⟩
  | .hbm, ⟨2, _⟩ => ⟨S32x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S1x4194304, .i32⟩
  | .hbm, ⟨9, _⟩ => ⟨S4194304, .i32⟩
  | .hbm, ⟨10, _⟩ => ⟨S_, .i32⟩
  | .hbm, ⟨11, _⟩ => ⟨S4194304, .i32⟩
  | .hbm, ⟨12, _⟩ => ⟨S4194304, .i1⟩
  | .hbm, ⟨13, _⟩ => ⟨S_, .i32⟩
  | .hbm, ⟨14, _⟩ => ⟨S4194304, .i32⟩
  | .hbm, ⟨15, _⟩ => ⟨S4194304, .i32⟩
  | .hbm, ⟨16, _⟩ => ⟨S4194304, .i32⟩
  | .hbm, ⟨17, _⟩ => ⟨S4194304x1, .i32⟩
  | .hbm, ⟨18, _⟩ => ⟨S4194304x16, .f32⟩
  | .hbm, ⟨19, _⟩ => ⟨S1x4194304, .i32⟩
  | .hbm, ⟨20, _⟩ => ⟨S4194304, .i32⟩
  | .hbm, ⟨21, _⟩ => ⟨S_, .i32⟩
  | .hbm, ⟨22, _⟩ => ⟨S4194304, .i32⟩
  | .hbm, ⟨23, _⟩ => ⟨S4194304, .i1⟩
  | .hbm, ⟨24, _⟩ => ⟨S_, .i32⟩
  | .hbm, ⟨25, _⟩ => ⟨S4194304, .i32⟩
  | .hbm, ⟨26, _⟩ => ⟨S4194304, .i32⟩
  | .hbm, ⟨27, _⟩ => ⟨S4194304, .i32⟩
  | .hbm, ⟨28, _⟩ => ⟨S4194304x1, .i32⟩
  | .hbm, ⟨29, _⟩ => ⟨S4194304x16, .f32⟩
  | .hbm, ⟨30, _⟩ => ⟨S4194304x32, .f32⟩
  | .hbm, ⟨31, _⟩ => ⟨S4194304x1, .f32⟩
  | .local _ .vmem, ⟨0, _⟩ => ⟨S4096x32, .f32⟩
  | .local _ .vmem, ⟨1, _⟩ => ⟨S4096x32, .f32⟩
  | .local _ .vmem, ⟨2, _⟩ => ⟨S32x64, .f32⟩
  | .local _ .vmem, ⟨3, _⟩ => ⟨S64, .f32⟩
  | .local _ .vmem, ⟨4, _⟩ => ⟨S64x32, .f32⟩
  | .local _ .vmem, ⟨5, _⟩ => ⟨S32, .f32⟩
  | .local _ .vmem, ⟨6, _⟩ => ⟨S32x1, .f32⟩
  | .local _ .vmem, ⟨7, _⟩ => ⟨S1, .f32⟩
  | .local _ .vmem, ⟨8, _⟩ => ⟨S4096x1, .f32⟩
  | .local _ .vmem, ⟨9, _⟩ => ⟨S4096x1, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x4194304_S1x4194304_0_0 : S2x4194304.Slices ![0, 0] S1x4194304
  shapeCasts_S1x4194304_S4194304 : S1x4194304.ShapeCasts S4194304
  bcast_S_S4194304 : S_.BroadcastsInDim S4194304 (![] : Fin 0 → Fin S4194304.rank)
  bcast_S4194304_S4194304x1_0 : S4194304.BroadcastsInDim S4194304x1 (![0] : Fin 1 → Fin S4194304x1.rank)
  slices_S2x4194304_S1x4194304_1_0 : S2x4194304.Slices ![1, 0] S1x4194304
  concatenates_S4194304x16_S4194304x16_S4194304x32_d1 : Shape.Concatenates [S4194304x16, S4194304x16] S4194304x32 1
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S4096x32 : S1x32.Broadcasts S4096x32
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  gather_S100000x16_S4194304x1_S4194304x16_1_0_n_n_0_1_116_wf : GatherDims.WF S100000x16 S4194304x1 S4194304x16 [1] [0] [] [0] [] 1 ![1, 16]
  dot_S4096x32_S32x64_S4096x64_1_0_0_1_n_n_wf : DotDims.WF S4096x32 S32x64 S4096x64 [1] [0] [0] [1] [] []
  dot_S4096x64_S64x32_S4096x32_1_0_0_1_n_n_wf : DotDims.WF S4096x64 S64x32 S4096x32 [1] [0] [0] [1] [] []
  dot_S4096x32_S32x1_S4096x1_1_0_0_1_n_n_wf : DotDims.WF S4096x32 S32x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x32.size a ≤ S4194304x32.size a
  hwx0_0 : ∀ i : grid0.Coords, EltTy.bits .f32 = 32 ∨ (Rect.block (s := S4194304x32) S4096x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x1.size a ≤ S32x1.size a
  hwx0_5 : ∀ i : grid0.Coords, EltTy.bits .f32 = 32 ∨ (Rect.block (s := S32x1) S32x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x1.size a ≤ S4194304x1.size a
  hwx0_7 : ∀ i : grid0.Coords, EltTy.bits .f32 = 32 ∨ (Rect.block (s := S4194304x1) S4096x1.size (cc0_transform_7 i) (hinb0_7 i)).WholeWords (EltTy.packing .f32)

variable [Facts₀]

def gather_S100000x16_S4194304x1_S4194304x16_1_0_n_n_0_1_116 : GatherDims S100000x16 S4194304x1 S4194304x16 where
  offsetDims := [1]
  collapsedSliceDims := [0]
  operandBatchingDims := []
  startIndicesBatchingDims := []
  startIndexMap := [0]
  indexVectorDim := 1
  sliceSizes := ![1, 16]
  wf := gather_S100000x16_S4194304x1_S4194304x16_1_0_n_n_0_1_116_wf
def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

abbrev win0_0 : Pipeline.Window sig grid0 :=
  Pipeline.Window.ofSpec (Memref.whole main_v18) S4096x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S32x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S4096x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x16 : Shape := ⟨2, ![100000, 16]⟩
abbrev S2x4194304 : Shape := ⟨2, ![2, 4194304]⟩
abbrev S32x64 : Shape := ⟨2, ![32, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x4194304 : Shape := ⟨2, ![1, 4194304]⟩
abbrev S4194304 : Shape := ⟨1, ![4194304]⟩
abbrev S_ : Shape := ⟨0, ![]⟩
abbrev S4194304x1 : Shape := ⟨2, ![4194304, 1]⟩
abbrev S4194304x16 : Shape := ⟨2, ![4194304, 16]⟩
abbrev S4194304x32 : Shape := ⟨2, ![4194304, 32]⟩
abbrev S4194304x64 : Shape := ⟨2, ![4194304, 64]⟩
abbrev S1x64 : Shape := ⟨2, ![1, 64]⟩
abbrev S1x32 : Shape := ⟨2, ![1, 32]⟩
abbrev S1x1 : Shape := ⟨2, ![1, 1]⟩

abbrev nBuf : Space → Nat
  | .hbm => 57
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x4194304, .i32⟩
  | .hbm, ⟨2, _⟩ => ⟨S32x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S1x4194304, .i32⟩
  | .hbm, ⟨9, _⟩ => ⟨S4194304, .i32⟩
  | .hbm, ⟨10, _⟩ => ⟨S_, .i32⟩
  | .hbm, ⟨11, _⟩ => ⟨S4194304, .i32⟩
  | .hbm, ⟨12, _⟩ => ⟨S4194304, .i1⟩
  | .hbm, ⟨13, _⟩ => ⟨S_, .i32⟩
  | .hbm, ⟨14, _⟩ => ⟨S4194304, .i32⟩
  | .hbm, ⟨15, _⟩ => ⟨S4194304, .i32⟩
  | .hbm, ⟨16, _⟩ => ⟨S4194304, .i32⟩
  | .hbm, ⟨17, _⟩ => ⟨S4194304x1, .i32⟩
  | .hbm, ⟨18, _⟩ => ⟨S4194304x16, .f32⟩
  | .hbm, ⟨19, _⟩ => ⟨S1x4194304, .i32⟩
  | .hbm, ⟨20, _⟩ => ⟨S4194304, .i32⟩
  | .hbm, ⟨21, _⟩ => ⟨S_, .i32⟩
  | .hbm, ⟨22, _⟩ => ⟨S4194304, .i32⟩
  | .hbm, ⟨23, _⟩ => ⟨S4194304, .i1⟩
  | .hbm, ⟨24, _⟩ => ⟨S_, .i32⟩
  | .hbm, ⟨25, _⟩ => ⟨S4194304, .i32⟩
  | .hbm, ⟨26, _⟩ => ⟨S4194304, .i32⟩
  | .hbm, ⟨27, _⟩ => ⟨S4194304, .i32⟩
  | .hbm, ⟨28, _⟩ => ⟨S4194304x1, .i32⟩
  | .hbm, ⟨29, _⟩ => ⟨S4194304x16, .f32⟩
  | .hbm, ⟨30, _⟩ => ⟨S4194304x32, .f32⟩
  | .hbm, ⟨31, _⟩ => ⟨S4194304x64, .f32⟩
  | .hbm, ⟨32, _⟩ => ⟨S1x64, .f32⟩
  | .hbm, ⟨33, _⟩ => ⟨S4194304x64, .f32⟩
  | .hbm, ⟨34, _⟩ => ⟨S4194304x64, .f32⟩
  | .hbm, ⟨35, _⟩ => ⟨S_, .f32⟩
  | .hbm, ⟨36, _⟩ => ⟨S4194304x64, .f32⟩
  | .hbm, ⟨37, _⟩ => ⟨S4194304x64, .f32⟩
  | .hbm, ⟨38, _⟩ => ⟨S4194304x32, .f32⟩
  | .hbm, ⟨39, _⟩ => ⟨S1x32, .f32⟩
  | .hbm, ⟨40, _⟩ => ⟨S4194304x32, .f32⟩
  | .hbm, ⟨41, _⟩ => ⟨S4194304x32, .f32⟩
  | .hbm, ⟨42, _⟩ => ⟨S_, .f32⟩
  | .hbm, ⟨43, _⟩ => ⟨S4194304x32, .f32⟩
  | .hbm, ⟨44, _⟩ => ⟨S4194304x32, .f32⟩
  | .hbm, ⟨45, _⟩ => ⟨S4194304x1, .f32⟩
  | .hbm, ⟨46, _⟩ => ⟨S1x1, .f32⟩
  | .hbm, ⟨47, _⟩ => ⟨S4194304x1, .f32⟩
  | .hbm, ⟨48, _⟩ => ⟨S4194304x1, .f32⟩
  | .hbm, ⟨49, _⟩ => ⟨S4194304x1, .f32⟩
  | .hbm, ⟨50, _⟩ => ⟨S4194304x1, .f32⟩
  | .hbm, ⟨51, _⟩ => ⟨S_, .f32⟩
  | .hbm, ⟨52, _⟩ => ⟨S4194304x1, .f32⟩
  | .hbm, ⟨53, _⟩ => ⟨S4194304x1, .f32⟩
  | .hbm, ⟨54, _⟩ => ⟨S_, .f32⟩
  | .hbm, ⟨55, _⟩ => ⟨S4194304x1, .f32⟩
  | .hbm, ⟨56, _⟩ => ⟨S4194304x1, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call1_cst : Ref sig .tc := ⟨.hbm, 42, rfl⟩
abbrev main_call1_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst : Ref sig .tc := ⟨.hbm, 51, rfl⟩
abbrev main_v35 : Ref sig .tc := ⟨.hbm, 52, rfl⟩
abbrev main_v36 : Ref sig .tc := ⟨.hbm, 53, rfl⟩
abbrev main_cst_3 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]

class Facts₀ : Prop where
  slices_S2x4194304_S1x4194304_0_0 : S2x4194304.Slices ![0, 0] S1x4194304
  shapeCasts_S1x4194304_S4194304 : S1x4194304.ShapeCasts S4194304
  bcast_S_S4194304 : S_.BroadcastsInDim S4194304 (![] : Fin 0 → Fin S4194304.rank)
  bcast_S4194304_S4194304x1_0 : S4194304.BroadcastsInDim S4194304x1 (![0] : Fin 1 → Fin S4194304x1.rank)
  slices_S2x4194304_S1x4194304_1_0 : S2x4194304.Slices ![1, 0] S1x4194304
  concatenates_S4194304x16_S4194304x16_S4194304x32_d1 : Shape.Concatenates [S4194304x16, S4194304x16] S4194304x32 1
  bcast_S64_S1x64_1 : S64.BroadcastsInDim S1x64 (![1] : Fin 1 → Fin S1x64.rank)
  bcast_S1x64_S4194304x64_0_1 : S1x64.BroadcastsInDim S4194304x64 (![0, 1] : Fin 2 → Fin S4194304x64.rank)
  bcast_S_S4194304x64 : S_.BroadcastsInDim S4194304x64 (![] : Fin 0 → Fin S4194304x64.rank)
  bcast_S32_S1x32_1 : S32.BroadcastsInDim S1x32 (![1] : Fin 1 → Fin S1x32.rank)
  bcast_S1x32_S4194304x32_0_1 : S1x32.BroadcastsInDim S4194304x32 (![0, 1] : Fin 2 → Fin S4194304x32.rank)
  bcast_S_S4194304x32 : S_.BroadcastsInDim S4194304x32 (![] : Fin 0 → Fin S4194304x32.rank)
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  bcast_S_S4194304x1 : S_.BroadcastsInDim S4194304x1 (![] : Fin 0 → Fin S4194304x1.rank)
  gather_S100000x16_S4194304x1_S4194304x16_1_0_n_n_0_1_116_wf : GatherDims.WF S100000x16 S4194304x1 S4194304x16 [1] [0] [] [0] [] 1 ![1, 16]
  dot_S4194304x32_S32x64_S4194304x64_1_0_0_1_n_n_wf : DotDims.WF S4194304x32 S32x64 S4194304x64 [1] [0] [0] [1] [] []
  dot_S4194304x64_S64x32_S4194304x32_1_0_0_1_n_n_wf : DotDims.WF S4194304x64 S64x32 S4194304x32 [1] [0] [0] [1] [] []
  dot_S4194304x32_S32x1_S4194304x1_1_0_0_1_n_n_wf : DotDims.WF S4194304x32 S32x1 S4194304x1 [1] [0] [0] [1] [] []

variable [Facts₀]

def gather_S100000x16_S4194304x1_S4194304x16_1_0_n_n_0_1_116 : GatherDims S100000x16 S4194304x1 S4194304x16 where
  offsetDims := [1]
  collapsedSliceDims := [0]
  operandBatchingDims := []
  startIndicesBatchingDims := []
  startIndexMap := [0]
  indexVectorDim := 1
  sliceSizes := ![1, 16]
  wf := gather_S100000x16_S4194304x1_S4194304x16_1_0_n_n_0_1_116_wf
def dot_S4194304x32_S32x64_S4194304x64_1_0_0_1_n_n : DotDims S4194304x32 S32x64 S4194304x64 where
  lhsContracting := [1]
  rhsContracting := [0]
  lhsNonContracting := [0]
  rhsNonContracting := [1]
  lhsBatch := []
  rhsBatch := []
  wf := dot_S4194304x32_S32x64_S4194304x64_1_0_0_1_n_n_wf
def dot_S4194304x64_S64x32_S4194304x32_1_0_0_1_n_n : DotDims S4194304x64 S64x32 S4194304x32 where
  lhsContracting := [1]
  rhsContracting := [0]
  lhsNonContracting := [0]
  rhsNonContracting := [1]
  lhsBatch := []
  rhsBatch := []
  wf := dot_S4194304x64_S64x32_S4194304x32_1_0_0_1_n_n_wf
def dot_S4194304x32_S32x1_S4194304x1_1_0_0_1_n_n : DotDims S4194304x32 S32x1 S4194304x1 where
  lhsContracting := [1]
  rhsContracting := [0]
  lhsNonContracting := [0]
  rhsNonContracting := [1]
  lhsBatch := []
  rhsBatch := []
  wf := dot_S4194304x32_S32x1_S4194304x1_1_0_0_1_n_n_wf

class Facts : Prop extends Facts₀ where

variable [Facts]
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.Layer.lean ====
/-
  The edge decoder on ONE edge's feature row, over the extended reals.

  A dense layer sends a row `x` to `y q = (∑ k, x k · w (k, q)) + b q`. The decoder is three of them — 32 → 64 → 32 → 1 —
  the first two followed by the rectifier `max (·, 0)`, the last by the logistic function `1 / (1 + e⁻ˣ)`. The
  result for an edge depends on that edge's row of features alone, so the same function describes a block of
  4096 rows and the whole array of rows.

  Also here: what a layer written as a matrix-unit product into the zero accumulator, plus the bias row cast to
  `[1, N]` and broadcast over the rows, holds at the entry `(p, q)`: the dense layer of row `p`. A change of float
  format is the identity on the extended reals, so the narrowed operands are the operands.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«107270_j21251498180835_1_alg».proof.Proof.LibRowDims

noncomputable section

open scoped BigOperators

namespace Cert.EdgeDecoder

open Idealize.ShloMosaic Idealize.ShloMosaic.ValueIdx

/-- One dense layer on a row: the products with column `q` of the weights summed, plus the bias at `q`. -/
def dense {K N : Nat} (x : Fin K → EReal) (w : (⟨2, ![K, N]⟩ : Shape).Idx → EReal) (b : (⟨1, ![N]⟩ : Shape).Idx → EReal)
    (q : Fin N) : EReal :=
  (∑ k : Fin K, x k * w (ix2 k q)) + b (ix1 q)

/-- The rectifier, entry by entry: the larger of the entry and the value of the zero word. -/
def relu {N : Nat} (y : Fin N → EReal) (q : Fin N) : EReal :=
  max (y q) (Ideal.ofBits .f32 0x00000000#32 : EReal)

/-- The decoder's output for one edge: the logistic function of the third layer's one entry. -/
def edgeProb (W1 : (⟨2, ![32, 64]⟩ : Shape).Idx → EReal) (b1 : (⟨1, ![64]⟩ : Shape).Idx → EReal)
    (W2 : (⟨2, ![64, 32]⟩ : Shape).Idx → EReal) (b2 : (⟨1, ![32]⟩ : Shape).Idx → EReal)
    (W3 : (⟨2, ![32, 1]⟩ : Shape).Idx → EReal) (b3 : (⟨1, ![1]⟩ : Shape).Idx → EReal) (x : Fin 32 → EReal) : EReal :=
  Ideal.logistic (dense (relu (dense (relu (dense x W1 b1)) W2 b2)) W3 b3 0)

/-- The decoder over an array of `E` feature rows: the result's entry `(r, 0)` is the decoder of row `r`. -/
def probs {E : Nat} (feats : (⟨2, ![E, 32]⟩ : Shape).Idx → EReal)
    (W1 : (⟨2, ![32, 64]⟩ : Shape).Idx → EReal) (b1 : (⟨1, ![64]⟩ : Shape).Idx → EReal)
    (W2 : (⟨2, ![64, 32]⟩ : Shape).Idx → EReal) (b2 : (⟨1, ![32]⟩ : Shape).Idx → EReal)
    (W3 : (⟨2, ![32, 1]⟩ : Shape).Idx → EReal) (b3 : (⟨1, ![1]⟩ : Shape).Idx → EReal) :
    (⟨2, ![E, 1]⟩ : Shape).Idx → EReal :=
  fun i => edgeProb W1 b1 W2 b2 W3 b3 (fun l => feats (ix2 (i 0) l))

/-- A layer as the kernel writes it — the product of the rows `X` with the weights into the zero accumulator, plus the
    bias cast to one row and broadcast over the rows — holds at `(p, q)` the dense layer of row `p` at `q`. -/
theorem matmul_bias_apply {M K N : Nat} {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) (p : Fin M) (q : Fin N) :
    addf (matmul d none X W (constant ⟨2, ![M, N]⟩ .f32 0x00000000#32))
        (broadcastTo ⟨2, ![M, N]⟩ (shapeCast ⟨2, ![1, N]⟩ b hc) hb) (ix2 p q)
      = dense (fun k => X (ix2 p k)) W b q := by
  subst hd
  rw [addf_apply]
  simp only [matmul]
  rw [RowDims.matmul_plain_zero_apply, broadcastTo_1b_ab_apply, shapeCast_a_1a_apply]
  rfl

/-- The same layer rectified against the splat of the zero word and narrowed: at `(p, q)` the rectifier of the dense
    layer of row `p`. -/
theorem relu_matmul_bias_apply {M K N : Nat} {φ₁ φ₂ ψ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) (hlt : ψ.bits < FTy.f32.bits) (p : Fin M) (q : Fin N) :
    (truncf ψ (maximumf (addf (matmul d none X W (constant ⟨2, ![M, N]⟩ .f32 0x00000000#32))
        (broadcastTo ⟨2, ![M, N]⟩ (shapeCast ⟨2, ![1, N]⟩ b hc) hb))
        (broadcast ⟨2, ![M, N]⟩ (FloatOps.ofBits (F := Ideal) .f32 0x00000000#32))) hlt : FVec Ideal ⟨2, ![M, N]⟩ ψ) (ix2 p q)
      = relu (dense (fun k => X (ix2 p k)) W b) q := by
  rw [truncf_apply, maximumf_apply, broadcast_apply, matmul_bias_apply d hd]
  rfl

end Cert.EdgeDecoder

end
-- ==== Proof.KernelRow.lean ====
/-
  What the kernel body stores for row `p` of its block: the decoder of that row of the feature block.

  The body narrows the feature block and each weight matrix (the identity on the extended reals), multiplies into a
  zero accumulator, adds the bias row broadcast over the 4096 rows, rectifies, and after the third layer applies the
  logistic function. Entry `(p, 0)` of the stored column therefore reads only row `p` of the feature block.
-/
import proofs.«107270_j21251498180835_1_alg».proof.Proof.Gen.KernelIdeal.Skeleton
import proofs.«107270_j21251498180835_1_alg».proof.Proof.Layer

noncomputable section

namespace Cert.EdgeDecoder

open Idealize.ShloMosaic Idealize.ShloMosaic.TcCoe Idealize.ShloMosaic.ValueIdx Cert.KernelIdeal Cert.KernelIdeal.Gen

/-- The three products of the body are plain row-by-column products. -/
theorem dot1_plain : dot_S4096x32_S32x64_S4096x64_1_0_0_1_n_n = DotDims.plain 4096 32 64 := rfl
theorem dot2_plain : dot_S4096x64_S64x32_S4096x32_1_0_0_1_n_n = DotDims.plain 4096 64 32 := rfl
theorem dot3_plain : dot_S4096x32_S32x1_S4096x1_1_0_0_1_n_n = DotDims.plain 4096 32 1 := rfl

/-- The stored column at row `p` is the decoder of row `p` of the loaded feature block. -/
theorem pay_row (v0 : Vec Ideal S4096x32 .f32) (v3 : Vec Ideal S32x64 .f32) (v6 : Vec Ideal S64 .f32)
    (v13 : Vec Ideal S64x32 .f32) (v16 : Vec Ideal S32 .f32) (v23 : Vec Ideal S32x1 .f32) (v26 : Vec Ideal S1 .f32)
    (p : Fin 4096) :
    k0_pay1 (F := Ideal) v0 v3 v6 v13 v16 v23 v26 (ix2 p 0)
      = edgeProb v3 v6 v13 v16 v23 v26 (fun l => v0 (ix2 p l)) := by
  unfold k0_pay1 edgeProb
  refine congrArg Ideal.logistic ?_
  refine (matmul_bias_apply _ dot3_plain _ _ _ _ _ p 0).trans ?_
  -- the third layer reads the rectified second layer at row p
  refine congrArg (fun x => dense x v23 v26 0) (funext fun k => ?_)
  refine (relu_matmul_bias_apply _ dot2_plain _ _ _ _ _ _ p k).trans ?_
  -- the second layer reads the rectified first layer at row p
  refine congrArg (fun x => relu (dense x v13 v16) k) (funext fun j => ?_)
  refine (relu_matmul_bias_apply _ dot1_plain _ _ _ _ _ _ p j).trans ?_
  -- the first layer reads row p of the feature block, cast to its own shape and narrowed: itself
  rw [shapeCast_self]
  rfl

/-- The stored column of a block whose row `y 0` is row `i 0` of a feature array, and whose other operands are the
    weight and bias arrays: at `y` it is the decoder over that array at `i`. -/
theorem pay_eq_probs (x0 : Vec Ideal S4096x32 .f32) (x1 : Vec Ideal S32x64 .f32) (x2 : Vec Ideal S64 .f32)
    (x3 : Vec Ideal S64x32 .f32) (x4 : Vec Ideal S32 .f32) (x5 : Vec Ideal S32x1 .f32) (x6 : Vec Ideal S1 .f32)
    (feats : S4194304x32.Idx → EReal) (W1 : S32x64.Idx → EReal) (b1 : S64.Idx → EReal) (W2 : S64x32.Idx → EReal)
    (b2 : S32.Idx → EReal) (W3 : S32x1.Idx → EReal) (b3 : S1.Idx → EReal) (y : S4096x1.Idx) (i : S4194304x1.Idx)
    (hrow : ∀ l : Fin 32, x0 (ix2 (y 0) l) = feats (ix2 (i 0) l))
    (h1 : x1 = W1) (h2 : x2 = b1) (h3 : x3 = W2) (h4 : x4 = b2) (h5 : x5 = W3) (h6 : x6 = b3) :
    k0_pay1 (F := Ideal) x0 x1 x2 x3 x4 x5 x6 y = probs (E := 4194304) feats W1 b1 W2 b2 W3 b3 i := by
  subst h1 h2 h3 h4 h5 h6
  -- the stored column has one entry per row
  have h1 : (y 1).val < 1 := (y 1).isLt
  have hc : y 1 = (0 : Fin 1) := Fin.ext (by show (y 1).val = 0; omega)
  have hy : y = ix2 (y 0) (0 : Fin 1) := (eq_ix2 y).trans (congrArg (ix2 (y 0)) hc)
  refine (congrArg (k0_pay1 (F := Ideal) x0 x1 x2 x3 x4 x5 x6) hy).trans ((pay_row x0 x1 x2 x3 x4 x5 x6 (y 0)).trans ?_)
  exact congrArg (edgeProb x1 x2 x3 x4 x5 x6) (funext hrow)

end Cert.EdgeDecoder

end
-- ==== Proof.Blocks.lean ====
/-
  From blocks to the array: after the kernel's run the result array is the decoder over the whole feature array.

  Grid point `t` stages rows `4096·t … 4096·t + 4095` of the feature array and the whole of each weight and bias
  array, and writes back rows `4096·t … 4096·t + 4095` of the result. Row `p` of what it writes is the decoder of row
  `p` of its feature block, that is of row `4096·t + p` of the feature array: block `t` of the decoder over the whole
  array. The 1024 blocks tile the result's 4194304 rows (row `r` lies in block `r / 4096`), so the result array is that
  function everywhere.
-/
import proofs.«107270_j21251498180835_1_alg».proof.Proof.Gen.KernelIdeal.Value
import proofs.«107270_j21251498180835_1_alg».proof.Proof.KernelRow

noncomputable section

namespace Cert.EdgeDecoder

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The block indices, decided over the 1024 grid points: the feature window and the result window move down their
    rows with the point, every weight and bias window stays on its one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-! ## The input blocks at a point -/

/-- Row `y 0` of the feature block at point `t` is the feature array's row under the result block's row `y 0`. -/
theorem feats_row (c : Dev nD) (t : Fin cfg0.N) (y : S4096x1.Idx) (l : Fin 32) :
    (iblk m c 0 t : Vec Ideal S4096x32 .f32) (ix2 (y 0) l)
      = (V m c main_v18 : S4194304x32.Idx → EReal) (ix2 ((((cfg0.win 7).blk t).view.emb y) 0) l) := by
  obtain ⟨e0, e1, -, -, -, -, -, -, -, -, -, e7, -⟩ := block_indices t
  show (V m c main_v18 : S4194304x32.Idx → EReal) (((cfg0.win 0).blk t).view.emb (ix2 (y 0) l)) = _
  refine congrArg (V m c main_v18 : S4194304x32.Idx → EReal) (funext fun a => Fin.ext ?_)
  match a with
  | ⟨0, _⟩ =>
    show win0_0.index t (0 : Fin 2) * 4096 + 1 * (y 0).val = win0_7.index t (0 : Fin 2) * 4096 + 1 * (y 0).val
    omega
  | ⟨1, _⟩ =>
    show win0_0.index t (1 : Fin 2) * 32 + 1 * l.val = l.val
    omega

/-- The first weight matrix is staged whole. -/
theorem w1_whole (c : Dev nD) (t : Fin cfg0.N) : (iblk m c 1 t : Vec Ideal S32x64 .f32) = V m c main_arg2 := by
  obtain ⟨-, -, e0, e1, -⟩ := block_indices t
  funext y
  show (V m c main_arg2 : S32x64.Idx → EReal) (((cfg0.win 1).blk t).view.emb y) = _
  refine congrArg (V m c main_arg2 : S32x64.Idx → EReal) (funext fun a => Fin.ext ?_)
  match a with
  | ⟨0, _⟩ => show win0_1.index t (0 : Fin 2) * 32 + 1 * (y 0).val = (y 0).val; omega
  | ⟨1, _⟩ => show win0_1.index t (1 : Fin 2) * 64 + 1 * (y 1).val = (y 1).val; omega

/-- The first bias is staged whole. -/
theorem b1_whole (c : Dev nD) (t : Fin cfg0.N) : (iblk m c 2 t : Vec Ideal S64 .f32) = V m c main_arg3 := by
  obtain ⟨-, -, -, -, e0, -⟩ := block_indices t
  funext y
  show (V m c main_arg3 : S64.Idx → EReal) (((cfg0.win 2).blk t).view.emb y) = _
  refine congrArg (V m c main_arg3 : S64.Idx → EReal) (funext fun a => Fin.ext ?_)
  match a with
  | ⟨0, _⟩ => show win0_2.index t (0 : Fin 1) * 64 + 1 * (y 0).val = (y 0).val; omega

/-- The second weight matrix is staged whole. -/
theorem w2_whole (c : Dev nD) (t : Fin cfg0.N) : (iblk m c 3 t : Vec Ideal S64x32 .f32) = V m c main_arg4 := by
  obtain ⟨-, -, -, -, -, e0, e1, -⟩ := block_indices t
  funext y
  show (V m c main_arg4 : S64x32.Idx → EReal) (((cfg0.win 3).blk t).view.emb y) = _
  refine congrArg (V m c main_arg4 : S64x32.Idx → EReal) (funext fun a => Fin.ext ?_)
  match a with
  | ⟨0, _⟩ => show win0_3.index t (0 : Fin 2) * 64 + 1 * (y 0).val = (y 0).val; omega
  | ⟨1, _⟩ => show win0_3.index t (1 : Fin 2) * 32 + 1 * (y 1).val = (y 1).val; omega

/-- The second bias is staged whole. -/
theorem b2_whole (c : Dev nD) (t : Fin cfg0.N) : (iblk m c 4 t : Vec Ideal S32 .f32) = V m c main_arg5 := by
  obtain ⟨-, -, -, -, -, -, -, e0, -⟩ := block_indices t
  funext y
  show (V m c main_arg5 : S32.Idx → EReal) (((cfg0.win 4).blk t).view.emb y) = _
  refine congrArg (V m c main_arg5 : S32.Idx → EReal) (funext fun a => Fin.ext ?_)
  match a with
  | ⟨0, _⟩ => show win0_4.index t (0 : Fin 1) * 32 + 1 * (y 0).val = (y 0).val; omega

/-- The third weight matrix is staged whole. -/
theorem w3_whole (c : Dev nD) (t : Fin cfg0.N) : (iblk m c 5 t : Vec Ideal S32x1 .f32) = V m c main_arg6 := by
  obtain ⟨-, -, -, -, -, -, -, -, e0, e1, -⟩ := block_indices t
  funext y
  show (V m c main_arg6 : S32x1.Idx → EReal) (((cfg0.win 5).blk t).view.emb y) = _
  refine congrArg (V m c main_arg6 : S32x1.Idx → EReal) (funext fun a => Fin.ext ?_)
  match a with
  | ⟨0, _⟩ => show win0_5.index t (0 : Fin 2) * 32 + 1 * (y 0).val = (y 0).val; omega
  | ⟨1, _⟩ => show win0_5.index t (1 : Fin 2) * 1 + 1 * (y 1).val = (y 1).val; omega

/-- The third bias is staged whole. -/
theorem b3_whole (c : Dev nD) (t : Fin cfg0.N) : (iblk m c 6 t : Vec Ideal S1 .f32) = V m c main_arg7 := by
  obtain ⟨-, -, -, -, -, -, -, -, -, -, e0, -⟩ := block_indices t
  funext y
  show (V m c main_arg7 : S1.Idx → EReal) (((cfg0.win 6).blk t).view.emb y) = _
  refine congrArg (V m c main_arg7 : S1.Idx → EReal) (funext fun a => Fin.ext ?_)
  match a with
  | ⟨0, _⟩ => show win0_6.index t (0 : Fin 1) * 1 + 1 * (y 0).val = (y 0).val; omega

/-! ## What a point writes back, and the array -/

/-- The result array as one function of the arrays the region finds: the decoder over the feature array. -/
abbrev result (c : Dev nD) : S4194304x1.Idx → EReal :=
  probs (E := 4194304) (V m c main_v18) (V m c main_arg2) (V m c main_arg3) (V m c main_arg4) (V m c main_arg5)
    (V m c main_arg6) (V m c main_arg7)

/-- What point `t` writes back is block `t` of that function. -/
theorem flushed_eq (c : Dev nD) (t : Fin cfg0.N) :
    (dats m 0 c).flushed 7 t = ((cfg0.win 7).blk t).view.read (Elt Ideal) (result m c) := by
  rw [Cert.KernelIdeal.Value.flushed7]
  unfold out0_7
  rw [View.canon_unit_zero zero2]
  simp only [View.ld_unit_zero (S := S4096x32) zero2, View.ld_unit_zero (S := S32x64) zero2,
    View.ld_unit_zero (S := S64) zero1, View.ld_unit_zero (S := S64x32) zero2, View.ld_unit_zero (S := S32) zero1,
    View.ld_unit_zero (S := S32x1) zero2, View.ld_unit_zero (S := S1) zero1]
  funext y
  show k0_pay1 (F := Ideal) (iblk m c 0 t) (iblk m c 1 t) (iblk m c 2 t) (iblk m c 3 t) (iblk m c 4 t) (iblk m c 5 t)
      (iblk m c 6 t) y = result m c (((cfg0.win 7).blk t).view.emb y)
  exact pay_eq_probs (iblk m c 0 t) (iblk m c 1 t) (iblk m c 2 t) (iblk m c 3 t) (iblk m c 4 t) (iblk m c 5 t)
    (iblk m c 6 t) (V m c main_v18) (V m c main_arg2) (V m c main_arg3) (V m c main_arg4) (V m c main_arg5)
    (V m c main_arg6) (V m c main_arg7) y (((cfg0.win 7).blk t).view.emb y) (fun l => feats_row m c t y l)
    (w1_whole m c t) (b1_whole m c t) (w2_whole m c t) (b2_whole m c t) (w3_whole m c t) (b3_whole m c t)

/-- An index of the result array is in point `t`'s block iff each coordinate is in the block's range on its axis. -/
theorem mem_block (t : Fin cfg0.N) (i : S4194304x1.Idx) :
    i ∈ ((cfg0.win 7).blk t).view.set ↔ ∀ a : Fin 2, win0_7.index t a * S4096x1.size a ≤ (i a).val
      ∧ (i a).val < win0_7.index t a * S4096x1.size a + S4096x1.size a := by
  show i ∈ ((View.whole main_v19).slice (win0_7.rect t)).set ↔ _
  rw [View.set_slice_whole, Rect.mem_set_unit]
  exact Iff.rfl

/-- Row `r` of the result lies in the block of point `r / 4096`. -/
theorem covered (i : S4194304x1.Idx) :
    ∃ t : Fin cfg0.N, (cfg0.win 7).flush t = true ∧ i ∈ ((cfg0.win 7).blk t).view.set := by
  have hi0 : (i 0).val < 4194304 := (i 0).isLt
  have hi1 : (i 1).val < 1 := (i 1).isLt
  have hN : cfg0.N = 1024 := N_0
  let t : Fin cfg0.N := ⟨(i 0).val / 4096, by rw [hN]; omega⟩
  obtain ⟨-, -, -, -, -, -, -, -, -, -, -, e0, e1⟩ := block_indices t
  have ht : t.val = (i 0).val / 4096 := rfl
  refine ⟨t, flush0_7 t, ?_⟩
  rw [mem_block]
  intro a
  match a with
  | ⟨0, _⟩ =>
    show win0_7.index t (0 : Fin 2) * 4096 ≤ (i 0).val ∧ (i 0).val < win0_7.index t (0 : Fin 2) * 4096 + 4096
    omega
  | ⟨1, _⟩ =>
    show win0_7.index t (1 : Fin 2) * 1 ≤ (i 1).val ∧ (i 1).val < win0_7.index t (1 : Fin 2) * 1 + 1
    omega

/-- The result array after the run is the decoder over the feature array. -/
theorem final (c : Dev nD) : (dats m 0 c).arrAt 7 cfg0.N = result m c :=
  (dats m 0 c).arrAt_eq_of_cover 7 (result m c) (fun t _ => flushed_eq m c t) covered

/-- The kernel's run, read: the result array at the decoder over the feature array as the region finds it, the
    arguments unchanged. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.EdgeDecoder

end
-- ==== Proof.RefRow.lean ====
/-
  What the reference computes for edge `r`: the decoder of row `r` of the gathered feature array.

  The reference multiplies the whole feature array by each weight matrix on the host, adds the bias broadcast over the
  rows, rectifies against a broadcast zero, and spells the logistic function as `1 / (1 + exp (−h))`. Each stage read at
  an index reads its operands at the same row, so entry `(r, 0)` of the result reads only row `r` of the features.
  The feature array itself — two row gathers joined side by side — is kept whole: the kernel stages the same array.
-/
import proofs.«107270_j21251498180835_1_alg».proof.Proof.Gen.ReferenceIdeal.Read
import proofs.«107270_j21251498180835_1_alg».proof.Proof.Layer
import Idealize.ShloMosaic.PureOps.IdealRules

noncomputable section

namespace Cert.EdgeDecoder

open Idealize.ShloMosaic Idealize.ShloMosaic.TcCoe Idealize.ShloMosaic.ValueIdx Cert.ReferenceIdeal Cert.ReferenceIdeal.Read

/-! ## The indices the stages read at -/

theorem lidx19_eq (r : Fin 4194304) (j : Fin 64) (k : Fin 32) : lidx_main_v19 (ix2 r j) k = ix2 r k :=
  funext fun a => Fin.ext (by match a with | ⟨0, _⟩ => rfl | ⟨1, _⟩ => rfl)
theorem ridx19_eq (r : Fin 4194304) (j : Fin 64) (k : Fin 32) : ridx_main_v19 (ix2 r j) k = ix2 k j :=
  funext fun a => Fin.ext (by match a with | ⟨0, _⟩ => rfl | ⟨1, _⟩ => rfl)
theorem bias1_eq (r : Fin 4194304) (j : Fin 64) : idx_main_v20 (idx_main_v21 (ix2 r j)) = ix1 j :=
  funext fun a => Fin.ext (by match a with | ⟨0, _⟩ => rfl)

theorem lidx24_eq (r : Fin 4194304) (k : Fin 32) (j : Fin 64) : lidx_main_v24 (ix2 r k) j = ix2 r j :=
  funext fun a => Fin.ext (by match a with | ⟨0, _⟩ => rfl | ⟨1, _⟩ => rfl)
theorem ridx24_eq (r : Fin 4194304) (k : Fin 32) (j : Fin 64) : ridx_main_v24 (ix2 r k) j = ix2 j k :=
  funext fun a => Fin.ext (by match a with | ⟨0, _⟩ => rfl | ⟨1, _⟩ => rfl)
theorem bias2_eq (r : Fin 4194304) (k : Fin 32) : idx_main_v25 (idx_main_v26 (ix2 r k)) = ix1 k :=
  funext fun a => Fin.ext (by match a with | ⟨0, _⟩ => rfl)

theorem lidx29_eq (r : Fin 4194304) (q : Fin 1) (k : Fin 32) : lidx_main_v29 (ix2 r q) k = ix2 r k :=
  funext fun a => Fin.ext (by match a with | ⟨0, _⟩ => rfl | ⟨1, _⟩ => rfl)
theorem ridx29_eq (r : Fin 4194304) (q : Fin 1) (k : Fin 32) : ridx_main_v29 (ix2 r q) k = ix2 k q :=
  funext fun a => Fin.ext (by match a with | ⟨0, _⟩ => rfl | ⟨1, _⟩ => rfl)
theorem bias3_eq (r : Fin 4194304) (q : Fin 1) : idx_main_v30 (idx_main_v31 (ix2 r q)) = ix1 q :=
  funext fun a => Fin.ext (by
    have hq : q.val < 1 := q.isLt
    match a with
    | ⟨0, _⟩ => show 0 = q.val; omega)

/-! ## The three layers, each at a row -/

variable (x0 : (⟨S100000x16, .f32⟩ : BufTy).Contents (Elt Ideal)) (x1 : (⟨S2x4194304, .i32⟩ : BufTy).Contents (Elt Ideal))
  (x2 : (⟨S32x64, .f32⟩ : BufTy).Contents (Elt Ideal)) (x3 : (⟨S64, .f32⟩ : BufTy).Contents (Elt Ideal))
  (x4 : (⟨S64x32, .f32⟩ : BufTy).Contents (Elt Ideal)) (x5 : (⟨S32, .f32⟩ : BufTy).Contents (Elt Ideal))
  (x6 : (⟨S32x1, .f32⟩ : BufTy).Contents (Elt Ideal)) (x7 : (⟨S1, .f32⟩ : BufTy).Contents (Elt Ideal))

/-- The rectified first layer at `(r, j)`: of row `r` of the feature array. -/
theorem layer1_row (r : Fin 4194304) (j : Fin 64) :
    val_main_v23 (F := Ideal) x0 x1 x2 x3 (ix2 r j)
      = relu (dense (fun l => val_main_v18 (F := Ideal) x0 x1 (ix2 r l)) x2 x3) j := by
  rw [val_main_v23_apply, val_main_v22_apply, val_main_v19_apply, val_main_v21_apply, val_main_v20_apply,
    val_main_call0_v0_apply, val_main_call0_cst_apply]
  simp only [lidx19_eq, ridx19_eq, bias1_eq]
  rfl

/-- The rectified second layer at `(r, k)`: of the rectified first layer's row `r`. -/
theorem layer2_row (r : Fin 4194304) (k : Fin 32) :
    val_main_v28 (F := Ideal) x0 x1 x2 x3 x4 x5 (ix2 r k)
      = relu (dense (relu (dense (fun l => val_main_v18 (F := Ideal) x0 x1 (ix2 r l)) x2 x3)) x4 x5) k := by
  rw [val_main_v28_apply, val_main_v27_apply, val_main_v24_apply, val_main_v26_apply, val_main_v25_apply,
    val_main_call1_v0_apply, val_main_call1_cst_apply]
  simp only [lidx24_eq, ridx24_eq, bias2_eq, layer1_row]
  rfl

/-- The third layer at `(r, 0)`: of the rectified second layer's row `r`. -/
theorem layer3_row (r : Fin 4194304) :
    val_main_v32 (F := Ideal) x0 x1 x2 x3 x4 x5 x6 x7 (ix2 r 0)
      = dense (relu (dense (relu (dense (fun l => val_main_v18 (F := Ideal) x0 x1 (ix2 r l)) x2 x3)) x4 x5)) x6 x7 0 := by
  rw [val_main_v32_apply, val_main_v29_apply, val_main_v31_apply, val_main_v30_apply]
  simp only [lidx29_eq, ridx29_eq, bias3_eq, layer2_row]
  rfl

/-! ## The logistic function, spelt out -/

/-- The word of `1.0` is the number one. -/
theorem one_word : (FloatOps.ofBits (F := Ideal) .f32 0x3F800000#32 : Ideal .f32) = 1 :=
  IdealRules.sign_bit.ideal_onePat .f32

/-- The reference's result for edge `r` is the decoder of row `r` of the feature array: its quotient
    `1 / (1 + exp (−h))` is the logistic function of the third layer's entry. -/
theorem ref_row (r : Fin 4194304) :
    val_main_v38 (F := Ideal) x0 x1 x2 x3 x4 x5 x6 x7 (ix2 r 0)
      = edgeProb x2 x3 x4 x5 x6 x7 (fun l => val_main_v18 (F := Ideal) x0 x1 (ix2 r l)) := by
  rw [val_main_v38_apply, val_main_v37_apply, val_main_cst_3_apply, val_main_v36_apply, val_main_v35_apply,
    val_main_cst_apply, val_main_v34_apply, val_main_v33_apply, layer3_row, one_word]
  rfl

end Cert.EdgeDecoder

end
-- ==== Proof.Feats.lean ====
/-
  The feature array is one term of the arguments in both programs.

  Before its one region the kernel's @main builds the feature array on the host exactly as the reference does: for each
  of the two rows of `edge_index`, a negative index is shifted up by the table's 100000 rows, the table's rows are
  gathered at the indices, and the two gathered arrays are joined side by side. So what the region finds in the array
  it stages is the reference's feature stage, of the same arguments. Nothing here looks inside the gathers.
-/
import proofs.«107270_j21251498180835_1_alg».proof.Proof.Gen.KernelIdeal.Frame
import proofs.«107270_j21251498180835_1_alg».proof.Proof.Gen.ReferenceIdeal.Read
import Idealize.ShloMosaic.Lib.StableHlo.Run

noncomputable section

namespace Cert.EdgeDecoder

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The array the region stages as features is the reference's feature stage of the two arguments it is built from. -/
theorem feats_eq (c : Dev nD) :
    (V m c main_v18 : S4194304x32.Idx → EReal)
      = Cert.ReferenceIdeal.Read.val_main_v18 (F := Ideal) (m ((c : Thread nD τ).loc main_arg0))
          (m ((c : Thread nD τ).loc main_arg1)) := by
  dsimp only [Gen.V, Gen.hostOps0]
  after_results_simp
  rfl

end Cert.EdgeDecoder

end
-- ==== Proof.Bridge.lean ====
/-
  Both programs' results as ONE function of the arguments.

  The reference's result array, stage by stage, is the decoder over its feature stage with the weight and bias
  arguments; the kernel's result array is the decoder over the array its region stages, which is that same feature
  stage of the same arguments, with the same weights and biases (no host operation before the region writes an
  argument). No law of arithmetic is used: both sides form the same sums, maxima and logistic function, entry by entry.
-/
import proofs.«107270_j21251498180835_1_alg».proof.Proof.Blocks
import proofs.«107270_j21251498180835_1_alg».proof.Proof.RefRow
import proofs.«107270_j21251498180835_1_alg».proof.Proof.Feats

noncomputable section

namespace Cert.EdgeDecoder

open Idealize.ShloMosaic Idealize.ShloMosaic.TcCoe Idealize.SL.Sem Idealize.ShloMosaic.ValueIdx

/-- The reference's result array is the decoder over its feature stage: its one column's entry at row `r` is the
    decoder of that stage's row `r`. -/
theorem ref_eq_probs
    (x0 : (⟨Cert.ReferenceIdeal.S100000x16, .f32⟩ : BufTy).Contents (Elt Ideal))
    (x1 : (⟨Cert.ReferenceIdeal.S2x4194304, .i32⟩ : BufTy).Contents (Elt Ideal))
    (x2 : (⟨Cert.ReferenceIdeal.S32x64, .f32⟩ : BufTy).Contents (Elt Ideal))
    (x3 : (⟨Cert.ReferenceIdeal.S64, .f32⟩ : BufTy).Contents (Elt Ideal))
    (x4 : (⟨Cert.ReferenceIdeal.S64x32, .f32⟩ : BufTy).Contents (Elt Ideal))
    (x5 : (⟨Cert.ReferenceIdeal.S32, .f32⟩ : BufTy).Contents (Elt Ideal))
    (x6 : (⟨Cert.ReferenceIdeal.S32x1, .f32⟩ : BufTy).Contents (Elt Ideal))
    (x7 : (⟨Cert.ReferenceIdeal.S1, .f32⟩ : BufTy).Contents (Elt Ideal)) :
    Cert.ReferenceIdeal.Read.val_main_v38 (F := Ideal) x0 x1 x2 x3 x4 x5 x6 x7
      = probs (E := 4194304) (Cert.ReferenceIdeal.Read.val_main_v18 (F := Ideal) x0 x1) x2 x3 x4 x5 x6 x7 := by
  funext i
  -- the result has one column
  have h1 : (i 1).val < 1 := (i 1).isLt
  have hc : i 1 = (0 : Fin 1) := Fin.ext (by show (i 1).val = 0; omega)
  have hi : i = ix2 (i 0) (0 : Fin 1) := (eq_ix2 i).trans (congrArg (ix2 (i 0)) hc)
  exact (congrArg (Cert.ReferenceIdeal.Read.val_main_v38 (F := Ideal) x0 x1 x2 x3 x4 x5 x6 x7) hi).trans
    (ref_row x0 x1 x2 x3 x4 x5 x6 x7 (i 0))

open Cert.KernelIdeal Cert.KernelIdeal.Gen

variable (m : (ℓ : Loc nD τ sig) → Buf (Elt Ideal) ℓ)

/-- The kernel's result array is the same decoder, of the arguments as launched. -/
theorem result_of_args (c : Dev nD) :
    result m c = probs (E := 4194304)
      (Cert.ReferenceIdeal.Read.val_main_v18 (F := Ideal) (m ((c : Thread nD τ).loc main_arg0))
        (m ((c : Thread nD τ).loc main_arg1)))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  show probs (E := 4194304) (V m c main_v18) (V m c main_arg2) (V m c main_arg3) (V m c main_arg4) (V m c main_arg5)
    (V m c main_arg6) (V m c main_arg7) = _
  rw [feats_eq m c, V_main_arg2 m c, V_main_arg3 m c, V_main_arg4 m c, V_main_arg5 m c, V_main_arg6 m c,
    V_main_arg7 m c]

end Cert.EdgeDecoder

end
-- ==== Proof.lean ====
/-
  An edge decoder: for each of 4194304 edges, the embeddings of its two end nodes are gathered from a table and joined
  into a row of 32 features; a three-layer perceptron (32 → 64 → 32 → 1, rectifier after the first two layers, logistic
  function after the third) maps the row to the edge's probability. The second result is the edge index array itself.

  The kernel builds the feature array on the host exactly as the reference does and runs the perceptron in one region
  over 1024 blocks of 4096 rows, the weights and biases staged whole; it narrows its matrix operands to a shorter float
  format, which over the extended reals is the identity, and multiplies into a zero accumulator. The reference
  multiplies the whole arrays on the host and spells the logistic function as a quotient. Entry by entry both form the
  same sums over the same products, the same maxima with zero and the same logistic function, so the two results are
  equal as extended reals on every input; the precondition is not used.

  The modules: Layer (the decoder of one row; a layer read at an entry), KernelRow (the kernel body's stored column at a
  row), RefRow (the reference's stages at a row), Feats (the staged feature array is the reference's feature stage),
  Blocks (the kernel's result array from its 1024 blocks), Bridge (both results as one function of the arguments).
  The two kernel frames are the generated ones; the reference's frame is its generated run with the results dropped;
  the idealization rewrote nothing, so there is nothing to preserve.
-/
import proofs.«107270_j21251498180835_1_alg».proof.Defs
import proofs.«107270_j21251498180835_1_alg».proof.Proof.Gen.Kernel
import proofs.«107270_j21251498180835_1_alg».proof.Proof.Gen.Kernel.Skeleton
import proofs.«107270_j21251498180835_1_alg».proof.Proof.Gen.Kernel.Launch
import proofs.«107270_j21251498180835_1_alg».proof.Proof.Gen.Kernel.Points
import proofs.«107270_j21251498180835_1_alg».proof.Proof.Gen.Kernel.Frame
import proofs.«107270_j21251498180835_1_alg».proof.Proof.Gen.KernelIdeal
import proofs.«107270_j21251498180835_1_alg».proof.Proof.Gen.KernelIdeal.Skeleton
import proofs.«107270_j21251498180835_1_alg».proof.Proof.Gen.KernelIdeal.Launch
import proofs.«107270_j21251498180835_1_alg».proof.Proof.Gen.KernelIdeal.Points
import proofs.«107270_j21251498180835_1_alg».proof.Proof.Gen.KernelIdeal.Frame
import proofs.«107270_j21251498180835_1_alg».proof.Proof.Gen.ReferenceIdeal
import proofs.«107270_j21251498180835_1_alg».proof.Proof.Gen.Pre_finite_inputs
import proofs.«107270_j21251498180835_1_alg».proof.Proof.Gen.KernelIdeal.Value
import proofs.«107270_j21251498180835_1_alg».proof.Proof.Gen.ReferenceIdeal.Run
import proofs.«107270_j21251498180835_1_alg».proof.Proof.Gen.ReferenceIdeal.Read
import proofs.«107270_j21251498180835_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed terminates, faults nowhere and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the decoder over the gathered feature array as
    their first result and the edge index array as their second. -/
theorem algebraic : Cert.algebraic_KernelIdeal_ReferenceIdeal := by
  intro m ρ m' ρ' _ hagree
  refine ⟨fun c => Cert.EdgeDecoder.result m c,
    fun c => m ((c.tc : Thread Cert.KernelIdeal.nD Cert.KernelIdeal.τ).loc Cert.KernelIdeal.main_arg1), ?_, ?_⟩
  · exact (θ_run Cert.KernelIdeal.defs _ _).mono (fun _ h c => ⟨(h c).1, (h c).2.2.1, (h c).2⟩)
      (Cert.EdgeDecoder.run m ρ)
  · refine (θ_run Cert.ReferenceIdeal.defs _ _).mono
      (fun _ h c => ⟨(h c).1.trans ?_, (h c).2.1.trans (hagree c).2.1, (h c).2.2⟩)
      (Cert.ReferenceIdeal.Value.run (F := Ideal) m' ρ')
    show _ = Cert.EdgeDecoder.result m c
    rw [Cert.ReferenceIdeal.Read.val_main_v38_eq, Cert.EdgeDecoder.ref_eq_probs, Cert.EdgeDecoder.result_of_args,
      (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
